-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x4096 : Shape := ⟨3, ![16, 512, 4096]⟩
abbrev S_ : Shape := ⟨0, ![]⟩

class Facts : Prop where
  bcast_S_S16x512x4096 : S_.BroadcastsInDim S16x512x4096 (![] : Fin 0 → Fin S16x512x4096.rank)
  reducesTo_S16x512x4096_S_d0_1_2 : S16x512x4096.ReducesTo [0, 1, 2] S_
  h_S_ : 0 < S_.numel

variable [Facts]

def fn_part1 {F : FTy → Type} [FloatOps F] (main_v13 : IVec S_ 1) (main_v16 : IVec S16x512x4096 1) : IVec S_ 1 :=
  let main_c_5 : IVec S_ 1 := constantI S_ 1 1#1
  let main_v17 : IVec S_ 1 := (fun x v => Host.reduce IntOp.andi x v reducesTo_S16x512x4096_S_d0_1_2 h_S_) main_v16 main_c_5
  let main_v18 : IVec S_ 1 := andi main_v13 main_v17
  main_v18

def fn {F : FTy → Type} [FloatOps F] (main_arg0 : FVec F S16x512x4096 .f32) (main_arg1 : FVec F S16x512x4096 .f32) (main_arg2 : FVec F S16x512x4096 .f32) (main_arg3 : FVec F S16x512x4096 .f32) : IVec S_ 1 :=
  let main_v0 : FVec F S16x512x4096 .f32 := Host.absf main_arg0
  let main_cst : FVec F S_ .f32 := constant S_ .f32 0x7F800000#32
  let main_v1 : FVec F S16x512x4096 .f32 := broadcastInDim S16x512x4096 ![] bcast_S_S16x512x4096 main_cst
  let main_v2 : IVec S16x512x4096 1 := cmpf .olt main_v0 main_v1
  let main_c : IVec S_ 1 := constantI S_ 1 1#1
  let main_v3 : IVec S_ 1 := (fun x v => Host.reduce IntOp.andi x v reducesTo_S16x512x4096_S_d0_1_2 h_S_) main_v2 main_c
  let main_v4 : FVec F S16x512x4096 .f32 := Host.absf main_arg1
  let main_cst_0 : FVec F S_ .f32 := constant S_ .f32 0x7F800000#32
  let main_v5 : FVec F S16x512x4096 .f32 := broadcastInDim S16x512x4096 ![] bcast_S_S16x512x4096 main_cst_0
  let main_v6 : IVec S16x512x4096 1 := cmpf .olt main_v4 main_v5
  let main_c_1 : IVec S_ 1 := constantI S_ 1 1#1
  let main_v7 : IVec S_ 1 := (fun x v => Host.reduce IntOp.andi x v reducesTo_S16x512x4096_S_d0_1_2 h_S_) main_v6 main_c_1
  let main_v8 : IVec S_ 1 := andi main_v3 main_v7
  let main_v9 : FVec F S16x512x4096 .f32 := Host.absf main_arg2
  let main_cst_2 : FVec F S_ .f32 := constant S_ .f32 0x7F800000#32
  let main_v10 : FVec F S16x512x4096 .f32 := broadcastInDim S16x512x4096 ![] bcast_S_S16x512x4096 main_cst_2
  let main_v11 : IVec S16x512x4096 1 := cmpf .olt main_v9 main_v10
  let main_c_3 : IVec S_ 1 := constantI S_ 1 1#1
  let main_v12 : IVec S_ 1 := (fun x v => Host.reduce IntOp.andi x v reducesTo_S16x512x4096_S_d0_1_2 h_S_) main_v11 main_c_3
  let main_v13 : IVec S_ 1 := andi main_v8 main_v12
  let main_v14 : FVec F S16x512x4096 .f32 := Host.absf main_arg3
  let main_cst_4 : FVec F S_ .f32 := constant S_ .f32 0x7F800000#32
  let main_v15 : FVec F S16x512x4096 .f32 := broadcastInDim S16x512x4096 ![] bcast_S_S16x512x4096 main_cst_4
  let main_v16 : IVec S16x512x4096 1 := cmpf .olt main_v14 main_v15
  fn_part1 (F := F) main_v13 main_v16
-- ==== Kernel.lean ====
abbrev S16x512x4096 : Shape := ⟨3, ![16, 512, 4096]⟩
abbrev S16x1x128 : Shape := ⟨3, ![16, 1, 128]⟩
abbrev S1x512x1024 : Shape := ⟨3, ![1, 512, 1024]⟩
abbrev S1x1x128 : Shape := ⟨3, ![1, 1, 128]⟩
abbrev S512x512 : Shape := ⟨2, ![512, 512]⟩
abbrev S512x1024 : Shape := ⟨2, ![512, 1024]⟩
abbrev S1x512x512 : Shape := ⟨3, ![1, 512, 512]⟩
abbrev S1 : Shape := ⟨1, ![1]⟩
abbrev S1x1x1 : Shape := ⟨3, ![1, 1, 1]⟩
abbrev S1x128 : Shape := ⟨2, ![1, 128]⟩
abbrev S16x1x1 : Shape := ⟨3, ![16, 1, 1]⟩
abbrev S16 : Shape := ⟨1, ![16]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S16x512x4096, .f32⟩
  | .hbm, ⟨1, _⟩ => ⟨S16x512x4096, .f32⟩
  | .hbm, ⟨2, _⟩ => ⟨S16x512x4096, .f32⟩
  | .hbm, ⟨3, _⟩ => ⟨S16x512x4096, .f32⟩
  | .hbm, ⟨4, _⟩ => ⟨S16x1x128, .f32⟩
  | .hbm, ⟨5, _⟩ => ⟨S16x1x1, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1x128, .f32⟩
  | .local _ .vmem, ⟨9, _⟩ => ⟨S1x1x128, .f32⟩
  | .local _ .vmem, ⟨10, _⟩ => ⟨S512x512, .f32⟩
  | .local _ .vmem, ⟨11, _⟩ => ⟨S512x512, .f32⟩
  | _, _ => ⟨S16x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_21 : BitVec 32 := 0#32
  let v29 : BitVec 1 := Scalar.cmpi .ne v28 c0_i32_21
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x512x4096.size a
  hwx0_0 : ∀ i : grid0.Coords, EltTy.bits .f32 = 32 ∨ (Rect.block (s := S16x512x4096) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x512x4096.size a
  hwx0_1 : ∀ i : grid0.Coords, EltTy.bits .f32 = 32 ∨ (Rect.block (s := S16x512x4096) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x512x4096.size a
  hwx0_2 : ∀ i : grid0.Coords, EltTy.bits .f32 = 32 ∨ (Rect.block (s := S16x512x4096) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x512x4096.size a
  hwx0_3 : ∀ i : grid0.Coords, EltTy.bits .f32 = 32 ∨ (Rect.block (s := S16x512x4096) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x512x4096 : Shape := ⟨3, ![16, 512, 4096]⟩
abbrev S16x512x512 : Shape := ⟨3, ![16, 512, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16x512x4096, .f32⟩
  | .hbm, ⟨1, _⟩ => ⟨S16x512x4096, .f32⟩
  | .hbm, ⟨2, _⟩ => ⟨S16x512x4096, .f32⟩
  | .hbm, ⟨3, _⟩ => ⟨S16x512x4096, .f32⟩
  | .hbm, ⟨4, _⟩ => ⟨S16x512x512, .f32⟩
  | .hbm, ⟨5, _⟩ => ⟨S_, .f32⟩
  | .hbm, ⟨6, _⟩ => ⟨S16x512x512, .f32⟩
  | .hbm, ⟨7, _⟩ => ⟨S16x512x512, .f32⟩
  | .hbm, ⟨8, _⟩ => ⟨S16x512x512, .f32⟩
  | .hbm, ⟨9, _⟩ => ⟨S_, .f32⟩
  | .hbm, ⟨10, _⟩ => ⟨S16x512x512, .f32⟩
  | .hbm, ⟨11, _⟩ => ⟨S16x512x512, .f32⟩
  | .hbm, ⟨12, _⟩ => ⟨S16x512x512, .f32⟩
  | .hbm, ⟨13, _⟩ => ⟨S16x512x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S16x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel
  dot_S16x512x4096_S16x512x4096_S16x512x512_2_2_1_1_0_0_wf : DotDims.WF S16x512x4096 S16x512x4096 S16x512x512 [2] [2] [1] [1] [0] [0]

variable [Facts₀]

def dot_S16x512x4096_S16x512x4096_S16x512x512_2_2_1_1_0_0 : DotDims S16x512x4096 S16x512x4096 S16x512x512 where
  lhsContracting := [2]
  rhsContracting := [2]
  lhsNonContracting := [1]
  rhsNonContracting := [1]
  lhsBatch := [0]
  rhsBatch := [0]
  wf := dot_S16x512x4096_S16x512x4096_S16x512x512_2_2_1_1_0_0_wf

class Facts : Prop extends Facts₀ where

variable [Facts]
-- ==== Proof.Consts.lean ====
/-
  The two float constants of the mean over the time axis, as the extended reals their patterns denote:
  the reference divides a Gram entry by 4096.0, the kernel multiplies it by 2⁻¹² (an exact power of two, so
  the folded reciprocal is the rational 1/4096 itself). On every extended real, the infinities included,
  the quotient by 4096 is the product with 1/4096.
-/
import Idealize.ShloMosaic.PureOps.Ideal

noncomputable section

namespace Cert.FspConsts

open Idealize.ShloMosaic

/-- The pattern of 4096.0 (exponent 12) denotes the real 4096. -/
theorem ofBits_4096 : Ideal.ofBits .f32 0x45800000#32 = ((4096 : ℝ) : EReal) := by
  simp [Ideal.ofBits, Ideal.ieee, -EReal.coe_mul]; norm_num

/-- The pattern of 2.44140625e-4 (exponent -12) denotes the real 1/4096. -/
theorem ofBits_inv4096 : Ideal.ofBits .f32 0x39800000#32 = ((1 / 4096 : ℝ) : EReal) := by
  simp [Ideal.ofBits, Ideal.ieee, -EReal.coe_mul]; norm_num

/-- Dividing by the word 4096.0 is multiplying by the word 2⁻¹², on every extended real. -/
theorem div_4096 (x : EReal) :
    Ideal.div x (Ideal.ofBits .f32 0x45800000#32) = x * Ideal.ofBits .f32 0x39800000#32 := by
  rw [ofBits_4096, ofBits_inv4096]
  exact Ideal.div_coe (by norm_num) x

end Cert.FspConsts

end
-- ==== Proof.TileSum.lean ====
/-
  Sums re-indexed. The time axis of length 4096 is cut into four tiles of 1024: a sum over the axis is the
  sum over the tiles of the sums inside each tile, and an accumulator that starts at zero and adds the four
  tile sums one after the other holds the whole sum. A sum over a rank-3 index set is the triple sum over
  its coordinates. All in a commutative additive monoid: no subtraction, no finiteness.
-/
import Idealize.ShloMosaic.Lib.ValueIdx

noncomputable section

open scoped BigOperators

namespace Cert.TileSum

open Idealize.ShloMosaic Idealize.ShloMosaic.ValueIdx

/-- Position `r` of tile `q` on the time axis: `1024 q + r`. -/
def tileIdx (q : Fin 4) (r : Fin 1024) : Fin 4096 :=
  ⟨1024 * q.val + r.val, by have := q.isLt; have := r.isLt; omega⟩

theorem tileIdx_val (q : Fin 4) (r : Fin 1024) : (tileIdx q r).val = 1024 * q.val + r.val := rfl

/-- (tile, position in the tile) ↔ position on the axis. -/
def tileEquiv : Fin 4 × Fin 1024 ≃ Fin 4096 where
  toFun p := tileIdx p.1 p.2
  invFun u := (⟨u.val / 1024, by have := u.isLt; omega⟩, ⟨u.val % 1024, Nat.mod_lt _ (by norm_num)⟩)
  left_inv p := by
    obtain ⟨q, r⟩ := p
    have hq := q.isLt; have hr := r.isLt
    refine Prod.ext (Fin.ext ?_) (Fin.ext ?_)
    · show (1024 * q.val + r.val) / 1024 = q.val; omega
    · show (1024 * q.val + r.val) % 1024 = r.val; omega
  right_inv u := by
    refine Fin.ext ?_
    show 1024 * (u.val / 1024) + u.val % 1024 = u.val; omega

/-- A sum over the time axis is the sum over the four tiles of the sums inside each. -/
theorem sum_tiles {M : Type*} [AddCommMonoid M] (f : Fin 4096 → M) :
    ∑ u, f u = ∑ q : Fin 4, ∑ r : Fin 1024, f (tileIdx q r) := by
  rw [← Equiv.sum_comp tileEquiv f, Fintype.sum_prod_type]
  rfl

/-- An accumulator reset to zero and then fed the four tile sums in order ends at their sum. -/
theorem chain_four {M : Type*} [AddCommMonoid M] (g : Fin 4 → M) :
    (((0 + g 0) + g 1) + g 2) + g 3 = ∑ q, g q := by
  rw [Fin.sum_univ_four, zero_add]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.TileSum

end
-- ==== Proof.Spec.lean ====
/-
  The loss both programs compute, as one function of the four argument arrays over the extended reals.
  For a batch `b` the Gram entry (i, j) of a pair (top, bot) is Σ_u top(b,i,u) · bot(b,j,u) over the whole time
  axis; each Gram entry is scaled by 2⁻¹² (the mean over the 4096 time steps), the two scaled Gram matrices are
  subtracted entry by entry, the difference squared, the squares summed over batch, row and column, and the
  total divided by 16 · 512 · 512 = 2²².
-/
import Idealize.ShloMosaic.Lib.ValueIdx

noncomputable section

open scoped BigOperators

namespace Cert.FspSpec

open Idealize.ShloMosaic Idealize.ShloMosaic.ValueIdx

/-- An argument array: batch × channel × time. -/
abbrev Arr : Type := (⟨3, ![16, 512, 4096]⟩ : Shape).Idx → EReal

/-- The Gram entry (i, j) of batch `b`: the product of row `i` of `top` with row `j` of `bot`, summed over time. -/
def gram (top bot : Arr) (b : Fin 16) (i j : Fin 512) : EReal :=
  ∑ u : Fin 4096, top (ix3 b i u) * bot (ix3 b j u)

/-- The squared difference of the two scaled Gram entries at (b, i, j). -/
def sqDiff (s1 s2 t1 t2 : Arr) (b : Fin 16) (i j : Fin 512) : EReal :=
  (gram s2 s1 b i j * Ideal.ofBits .f32 0x39800000#32 - gram t2 t1 b i j * Ideal.ofBits .f32 0x39800000#32)
    * (gram s2 s1 b i j * Ideal.ofBits .f32 0x39800000#32 - gram t2 t1 b i j * Ideal.ofBits .f32 0x39800000#32)

/-- The sum of the squared differences of one batch. -/
def batchSum (s1 s2 t1 t2 : Arr) (b : Fin 16) : EReal :=
  ∑ i : Fin 512, ∑ j : Fin 512, sqDiff s1 s2 t1 t2 b i j

/-- The loss: the mean of the squared differences. -/
def loss (s1 s2 t1 t2 : Arr) : EReal :=
  Ideal.div (∑ b : Fin 16, batchSum s1 s2 t1 t2 b) (Ideal.ofBits .f32 0x4A800000#32)

end Cert.FspSpec

end
-- ==== Proof.RefValue.lean ====
/-
  The reference's result, read index by index at the ideal instance, is the loss of Spec.lean.
  Its two batched products contract the time axis, so entry (b, i, j) of each is the Gram entry of the
  specification; the quotient by 4096.0 is the product with 2⁻¹² on every extended real; the reduction over all
  three axes from the zero word is the triple sum over batch, row and column.
-/
import proofs.«142705_j85555748537092_1_alg».proof.Proof.Gen.ReferenceIdeal.Read
import proofs.«142705_j85555748537092_1_alg».proof.Proof.Consts
import proofs.«142705_j85555748537092_1_alg».proof.Proof.TileSum
import proofs.«142705_j85555748537092_1_alg».proof.Proof.Spec
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx
open Cert.FspSpec Cert.TileSum

/-- The first product's left operand index at output (b, i, j) and time `k` is (b, i, k). -/
theorem lidx0_eq (b : Fin 16) (i j : Fin 512) (k : Fin 4096) : lidx_main_v0 (ix3 b i j) k = ix3 b i k :=
  funext fun a => by match a with | ⟨0, _⟩ => rfl | ⟨1, _⟩ => rfl | ⟨2, _⟩ => rfl
/-- Its right operand index is (b, j, k). -/
theorem ridx0_eq (b : Fin 16) (i j : Fin 512) (k : Fin 4096) : ridx_main_v0 (ix3 b i j) k = ix3 b j k :=
  funext fun a => by match a with | ⟨0, _⟩ => rfl | ⟨1, _⟩ => rfl | ⟨2, _⟩ => rfl
/-- The same for the second product. -/
theorem lidx3_eq (b : Fin 16) (i j : Fin 512) (k : Fin 4096) : lidx_main_v3 (ix3 b i j) k = ix3 b i k :=
  funext fun a => by match a with | ⟨0, _⟩ => rfl | ⟨1, _⟩ => rfl | ⟨2, _⟩ => rfl
theorem ridx3_eq (b : Fin 16) (i j : Fin 512) (k : Fin 4096) : ridx_main_v3 (ix3 b i j) k = ix3 b j k :=
  funext fun a => by match a with | ⟨0, _⟩ => rfl | ⟨1, _⟩ => rfl | ⟨2, _⟩ => rfl

/-- Entry (b, i, j) of the first product is the Gram entry of (second argument, first argument). -/
theorem prod0_apply (x0 x1 : Arr) (b : Fin 16) (i j : Fin 512) :
    val_main_v0 (F := Ideal) x0 x1 (ix3 b i j) = gram x1 x0 b i j := by
  rw [val_main_v0_apply]
  exact Finset.sum_congr rfl fun k _ => by rw [lidx0_eq, ridx0_eq]

/-- Entry (b, i, j) of the second product is the Gram entry of (fourth argument, third argument). -/
theorem prod3_apply (x2 x3 : Arr) (b : Fin 16) (i j : Fin 512) :
    val_main_v3 (F := Ideal) x2 x3 (ix3 b i j) = gram x3 x2 b i j := by
  rw [val_main_v3_apply]
  exact Finset.sum_congr rfl fun k _ => by rw [lidx3_eq, ridx3_eq]

/-- The first mean: the Gram entry times 2⁻¹². -/
theorem mean2_apply (x0 x1 : Arr) (b : Fin 16) (i j : Fin 512) :
    val_main_v2 (F := Ideal) x0 x1 (ix3 b i j) = gram x1 x0 b i j * Ideal.ofBits .f32 0x39800000#32 := by
  rw [val_main_v2_apply, val_main_v1_apply, val_main_cst_apply, prod0_apply]
  exact Cert.FspConsts.div_4096 _

/-- The second mean likewise. -/
theorem mean5_apply (x2 x3 : Arr) (b : Fin 16) (i j : Fin 512) :
    val_main_v5 (F := Ideal) x2 x3 (ix3 b i j) = gram x3 x2 b i j * Ideal.ofBits .f32 0x39800000#32 := by
  rw [val_main_v5_apply, val_main_v4_apply, val_main_cst_0_apply, prod3_apply]
  exact Cert.FspConsts.div_4096 _

/-- The squared difference at (b, i, j) is the specification's. -/
theorem sq7_apply (x0 x1 x2 x3 : Arr) (b : Fin 16) (i j : Fin 512) :
    val_main_v7 (F := Ideal) x0 x1 x2 x3 (ix3 b i j) = sqDiff x0 x1 x2 x3 b i j := by
  rw [val_main_v7_apply, val_main_v6_apply, mean2_apply, mean5_apply]
  rfl

/-- The reference's result is the loss. -/
theorem result_eq (x0 x1 x2 x3 : Arr) :
    val_main_v9 (F := Ideal) x0 x1 x2 x3 = fun _ => loss x0 x1 x2 x3 := by
  funext i
  rw [val_main_v9_apply, val_main_v8_apply, val_main_cst_1_apply, val_main_cst_2_apply, sum_idx3]
  show Ideal.div (Ideal.ofBits .f32 0x00000000#32 + _) (Ideal.ofBits .f32 0x4A800000#32) = _
  rw [Ideal.ofBits_zero_f32, zero_add]
  unfold loss batchSum
  exact congrArg (fun s => Ideal.div s (Ideal.ofBits .f32 0x4A800000#32))
    (Finset.sum_congr rfl fun b _ => Finset.sum_congr rfl fun i _ => Finset.sum_congr rfl fun j _ =>
      sq7_apply x0 x1 x2 x3 b i j)

end Cert.ReferenceIdeal.RefValue

end
-- ==== Proof.KernelPieces.lean ====
/-
  What one run of the kernel body leaves behind, as plain functions of what it read.
  The body keeps two 512×512 accumulators in scratch. On a batch's first time tile it clears both and then adds the
  tile's two products; on the other tiles it adds the tile's products to what the tile before left; on the last tile
  it also writes, to every lane of the output block, the sum over all entries of the squared difference of the two
  scaled accumulators. Each statement below says that the buffer's final contents are the last store's value, whose
  loads read the whole buffers (a load of a scratch after a store to it reads the stored value).
-/
import proofs.«142705_j85555748537092_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]
variable (c : Dev nD) (i : grid0.Coords)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x1024 .f32) (harg5 : arg5.IsWhole)
  (arg6 : Memref sig .tc .vmem S1x1x128 .f32) (harg6 : arg6.IsWhole)
  (arg7 : Memref sig .tc .vmem S512x512 .f32) (harg7 : arg7.IsWhole)
  (arg8 : Memref sig .tc .vmem S512x512 .f32) (harg8 : arg8.IsWhole)
  (x0 x1 x2 x3 : Vec F S1x512x1024 .f32)

theorem off2 : (![0, 0] : Fin 2 → Nat) = fun _ => 0 := funext fun a => by fin_cases a <;> rfl
theorem off3 : (![0, 0, 0] : Fin 3 → Nat) = fun _ => 0 := funext fun a => by fin_cases a <;> rfl

/-- A middle tile: the first accumulator ends at the old one plus the tile's product of the first pair. -/
theorem acc0_mid (hc0 : ¬cond0_0 i) (hc1 : ¬cond0_1 i) (xs0 xs1 : Vec F S512x512 .f32) :
    sout0_B_0 c i arg2 harg2 arg3 harg3 arg4 harg4 arg5 harg5 arg6 harg6 arg7 harg7 arg8 harg8 hc0 hc1 x0 x1 x2 x3 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero off2]
  simp only [View.readAt_eq_ld, harg2.read_unread, harg3.read_unread, harg4.read_unread, harg5.read_unread, harg7.read_unread, harg8.read_unread, View.ld_unit_zero (S := S1x512x1024) off3, View.ld_unit_zero (S := S512x512) off2]

/-- A middle tile: the second accumulator ends at the old one plus the tile's product of the second pair. -/
theorem acc1_mid (hc0 : ¬cond0_0 i) (hc1 : ¬cond0_1 i) (xs0 xs1 : Vec F S512x512 .f32) :
    sout0_B_1 c i arg2 harg2 arg3 harg3 arg4 harg4 arg5 harg5 arg6 harg6 arg7 harg7 arg8 harg8 hc0 hc1 x0 x1 x2 x3 xs0 xs1 = k0_pay5 x2 x3 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero off2]
  simp only [View.readAt_eq_ld, harg2.read_unread, harg3.read_unread, harg4.read_unread, harg5.read_unread, harg7.read_unread, harg8.read_unread, View.ld_unit_zero (S := S1x512x1024) off3, View.ld_unit_zero (S := S512x512) off2]

/-- The last tile: the first accumulator likewise. -/
theorem acc0_last (hc0 : ¬cond0_0 i) (hc1 : cond0_1 i) (xs0 xs1 : Vec F S512x512 .f32) :
    sout0_C_0 c i arg2 harg2 arg3 harg3 arg4 harg4 arg5 harg5 arg6 harg6 arg7 harg7 arg8 harg8 hc0 hc1 x0 x1 x2 x3 xs0 xs1 = k0_pay4 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero off2]
  simp only [View.readAt_eq_ld, harg2.read_unread, harg3.read_unread, harg4.read_unread, harg5.read_unread, harg7.read_unread, harg8.read_unread, View.ld_unit_zero (S := S1x512x1024) off3, View.ld_unit_zero (S := S512x512) off2]

/-- The last tile: the second accumulator likewise. -/
theorem acc1_last (hc0 : ¬cond0_0 i) (hc1 : cond0_1 i) (xs0 xs1 : Vec F S512x512 .f32) :
    sout0_C_1 c i arg2 harg2 arg3 harg3 arg4 harg4 arg5 harg5 arg6 harg6 arg7 harg7 arg8 harg8 hc0 hc1 x0 x1 x2 x3 xs0 xs1 = k0_pay5 x2 x3 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero off2]
  simp only [View.readAt_eq_ld, harg2.read_unread, harg3.read_unread, harg4.read_unread, harg5.read_unread, harg7.read_unread, harg8.read_unread, View.ld_unit_zero (S := S1x512x1024) off3, View.ld_unit_zero (S := S512x512) off2]

/-- The first tile: the first accumulator is cleared, then the tile's product of the first pair is added to the cleared contents. -/
theorem acc0_first (hc0 : cond0_0 i) (hc1 : ¬cond0_1 i) :
    sout0_A_0 c i arg2 harg2 arg3 harg3 arg4 harg4 arg5 harg5 arg6 harg6 arg7 harg7 arg8 harg8 hc0 hc1 x0 x1 x2 x3 = k0_pay4 x0 x1 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x512) off2, View.readCov_unit_zero (S := S512x512) _ off2]
  simp only [View.readAt_eq_ld, harg2.read_unread, harg3.read_unread, harg4.read_unread, harg5.read_unread, harg7.read_unread, harg8.read_unread, View.ld_unit_zero (S := S1x512x1024) off3, View.ld_unit_zero (S := S512x512) off2, View.readCov_unit_zero (S := S512x512) _ off2]

/-- The first tile: the second accumulator likewise. -/
theorem acc1_first (hc0 : cond0_0 i) (hc1 : ¬cond0_1 i) :
    sout0_A_1 c i arg2 harg2 arg3 harg3 arg4 harg4 arg5 harg5 arg6 harg6 arg7 harg7 arg8 harg8 hc0 hc1 x0 x1 x2 x3 = k0_pay5 x2 x3 (k0_pay3 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x512) off2, View.readCov_unit_zero (S := S512x512) _ off2]
  simp only [View.readAt_eq_ld, harg2.read_unread, harg3.read_unread, harg4.read_unread, harg5.read_unread, harg7.read_unread, harg8.read_unread, View.ld_unit_zero (S := S1x512x1024) off3, View.ld_unit_zero (S := S512x512) off2, View.readCov_unit_zero (S := S512x512) _ off2]

/-- The last tile: the output block gets the lane value of the two accumulators just updated. -/
theorem out_last (hc0 : ¬cond0_0 i) (hc1 : cond0_1 i) (xs0 xs1 : Vec F S512x512 .f32) :
    out0_C_4 c i arg2 harg2 arg3 harg3 arg4 harg4 arg5 harg5 arg6 harg6 arg7 harg7 arg8 harg8 hc0 hc1 x0 x1 x2 x3 xs0 xs1 = k0_pay1 (k0_pay4 x0 x1 xs0) (k0_pay5 x2 x3 xs1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero off3]
  simp only [View.readAt_eq_ld, harg2.read_unread, harg3.read_unread, harg4.read_unread, harg5.read_unread, harg7.read_unread, harg8.read_unread, View.ld_unit_zero (S := S1x512x1024) off3, View.ld_unit_zero (S := S512x512) off2, View.readCov_unit_zero (S := S512x512) _ off2]

end Cert.KernelIdeal.Pieces

end
-- ==== Proof.KernelChain.lean ====
/-
  The output block of one batch, as a function of the batch's four time tiles.
  The grid runs the four tiles of a batch one after the other: the first clears the two accumulators and adds its
  products, the second and third add theirs to what the tile before left, the fourth adds its own and writes the
  lane value of the two accumulators. So what the output's staging buffer holds after a batch's last tile is the lane
  value of two four-fold nested accumulator steps starting from the cleared accumulators — no induction over the
  grid is needed, only the four points of the batch.
-/
import proofs.«142705_j85555748537092_1_alg».proof.Proof.Gen.KernelIdeal.Frame
import proofs.«142705_j85555748537092_1_alg».proof.Proof.KernelPieces

set_option maxRecDepth 16384

noncomputable section

namespace Cert.KernelIdeal.Chain

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The four input blocks at a grid point, at their literal type. -/
abbrev blkA (c : Dev nD) (t : Fin cfg0.N) : Vec F S1x512x1024 .f32 := iblk m c 0 t
abbrev blkB (c : Dev nD) (t : Fin cfg0.N) : Vec F S1x512x1024 .f32 := iblk m c 1 t
abbrev blkC (c : Dev nD) (t : Fin cfg0.N) : Vec F S1x512x1024 .f32 := iblk m c 2 t
abbrev blkD (c : Dev nD) (t : Fin cfg0.N) : Vec F S1x512x1024 .f32 := iblk m c 3 t

/-- What the point before `t` left. -/
abbrev prev (c : Dev nD) (t : Fin cfg0.N) : Vec F S1x1x128 .f32 × Vec F S512x512 .f32 × Vec F S512x512 .f32 :=
  outsAt0 m c (t.val - 1) (Nat.lt_of_le_of_lt (Nat.sub_le _ _) t.isLt)

theorem outsAt_congr (c : Dev nD) {n n' : ℕ} (e : n = n') (h : n < cfg0.N) (h' : n' < cfg0.N) :
    outsAt0 m c n h = outsAt0 m c n' h' := by subst e; rfl

/-- After a batch's first tile: each accumulator is one step from the cleared one. -/
theorem after_first (c : Dev nD) (t : Fin cfg0.N) (h0 : t.val % 4 = 0) :
    (outsAt0 m c t.val t.isLt).2
      = (k0_pay4 (blkA m c t) (blkB m c t) (k0_pay2 (F := F)), k0_pay5 (blkC m c t) (blkD m c t) (k0_pay3 (F := F))) := by
  have h1 : ¬t.val % 4 = 3 := by omega
  rw [outsAt0_A m c t h0 h1]
  dsimp only
  exact congrArg₂ Prod.mk
    (Pieces.acc0_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (blkA m c t) (blkB m c t) (blkC m c t) (blkD m c t) ((hcond0_0 t).mpr h0) (fun h => h1 ((hcond0_1 t).mp h)))
    (Pieces.acc1_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (blkA m c t) (blkB m c t) (blkC m c t) (blkD m c t) ((hcond0_0 t).mpr h0) (fun h => h1 ((hcond0_1 t).mp h)))

/-- After a middle tile: each accumulator is one step from what the tile before left. -/
theorem after_mid (c : Dev nD) (t : Fin cfg0.N) (h0 : ¬t.val % 4 = 0) (h1 : ¬t.val % 4 = 3) :
    (outsAt0 m c t.val t.isLt).2
      = (k0_pay4 (blkA m c t) (blkB m c t) (prev m c t).2.1, k0_pay5 (blkC m c t) (blkD m c t) (prev m c t).2.2) := by
  rw [outsAt0_B m c t h0 h1]
  dsimp only
  exact congrArg₂ Prod.mk
    (Pieces.acc0_mid c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (blkA m c t) (blkB m c t) (blkC m c t) (blkD m c t) (fun h => h0 ((hcond0_0 t).mp h)) (fun h => h1 ((hcond0_1 t).mp h)) (prev m c t).2.1 (prev m c t).2.2)
    (Pieces.acc1_mid c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (blkA m c t) (blkB m c t) (blkC m c t) (blkD m c t) (fun h => h0 ((hcond0_0 t).mp h)) (fun h => h1 ((hcond0_1 t).mp h)) (prev m c t).2.1 (prev m c t).2.2)

/-- After a batch's last tile the output's staging buffer holds the lane value of the two accumulators, each one
    step from what the tile before left. -/
theorem after_last (c : Dev nD) (t : Fin cfg0.N) (h0 : ¬t.val % 4 = 0) (h1 : t.val % 4 = 3) :
    (outsAt0 m c t.val t.isLt).1
      = k0_pay1 (k0_pay4 (blkA m c t) (blkB m c t) (prev m c t).2.1) (k0_pay5 (blkC m c t) (blkD m c t) (prev m c t).2.2) := by
  rw [outsAt0_C m c t h0 h1]
  dsimp only
  exact Pieces.out_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (blkA m c t) (blkB m c t) (blkC m c t) (blkD m c t) (fun h => h0 ((hcond0_0 t).mp h)) ((hcond0_1 t).mpr h1) (prev m c t).2.1 (prev m c t).2.2

/-- Tile `k` of batch `b` as a grid point: the grid is batch-major, four tiles to a batch. -/
def pt (b : Fin 16) (k : ℕ) (hk : k < 4) : Fin cfg0.N :=
  ⟨4 * b.val + k, by have hN : cfg0.N = 64 := N_0; have := b.isLt; omega⟩

theorem pt_val (b : Fin 16) (k : ℕ) (hk : k < 4) : (pt b k hk).val = 4 * b.val + k := rfl

/-- The first accumulator after the four tiles of batch `b`. -/
def accS (c : Dev nD) (b : Fin 16) : Vec F S512x512 .f32 :=
  k0_pay4 (blkA m c (pt b 3 (by omega))) (blkB m c (pt b 3 (by omega)))
    (k0_pay4 (blkA m c (pt b 2 (by omega))) (blkB m c (pt b 2 (by omega)))
      (k0_pay4 (blkA m c (pt b 1 (by omega))) (blkB m c (pt b 1 (by omega)))
        (k0_pay4 (blkA m c (pt b 0 (by omega))) (blkB m c (pt b 0 (by omega))) (k0_pay2 (F := F)))))

/-- The second accumulator after the four tiles of batch `b`. -/
def accT (c : Dev nD) (b : Fin 16) : Vec F S512x512 .f32 :=
  k0_pay5 (blkC m c (pt b 3 (by omega))) (blkD m c (pt b 3 (by omega)))
    (k0_pay5 (blkC m c (pt b 2 (by omega))) (blkD m c (pt b 2 (by omega)))
      (k0_pay5 (blkC m c (pt b 1 (by omega))) (blkD m c (pt b 1 (by omega)))
        (k0_pay5 (blkC m c (pt b 0 (by omega))) (blkD m c (pt b 0 (by omega))) (k0_pay3 (F := F)))))

/-- What the point before tile `k + 1` of a batch left is what tile `k` left. -/
theorem prev_pt (c : Dev nD) (b : Fin 16) (k : ℕ) (hk : k + 1 < 4) :
    prev m c (pt b (k + 1) hk) = outsAt0 m c (pt b k (by omega)).val (pt b k (by omega)).isLt :=
  outsAt_congr m c (by show 4 * b.val + (k + 1) - 1 = 4 * b.val + k; omega) _ _

/-- After the last tile of batch `b` the output's staging buffer holds the lane value of the batch's two
    accumulators. -/
theorem out_batch (c : Dev nD) (b : Fin 16) :
    (outsAt0 m c (pt b 3 (by omega)).val (pt b 3 (by omega)).isLt).1 = k0_pay1 (accS m c b) (accT m c b) := by
  have e0 := after_first m c (pt b 0 (by omega)) (by rw [pt_val]; omega)
  have e1 := after_mid m c (pt b 1 (by omega)) (by rw [pt_val]; omega) (by rw [pt_val]; omega)
  have e2 := after_mid m c (pt b 2 (by omega)) (by rw [pt_val]; omega) (by rw [pt_val]; omega)
  have e3 := after_last m c (pt b 3 (by omega)) (by rw [pt_val]; omega) (by rw [pt_val]; omega)
  rw [prev_pt m c b 0 (by omega), e0] at e1
  rw [prev_pt m c b 1 (by omega), e1] at e2
  rw [prev_pt m c b 2 (by omega), e2] at e3
  exact e3

end Cert.KernelIdeal.Chain

end
-- ==== Proof.OutArray.lean ====
/-
  The kernel's result array after the region.
  The output has one block [1, 1, 128] per batch, written back after the batch's last tile only; the blocks of the
  sixteen batches tile the array [16, 1, 128]. So row `b` of the array holds, in every lane, the lane value of
  batch `b`'s two accumulators.
-/
import proofs.«142705_j85555748537092_1_alg».proof.Proof.Gen.KernelIdeal.Frame
import proofs.«142705_j85555748537092_1_alg».proof.Proof.KernelChain
import Idealize.ShloMosaic.Lib.Pipeline.Value
import Idealize.ShloMosaic.Lib.ValueIdx

set_option maxRecDepth 16384

noncomputable section

namespace Cert.KernelIdeal.OutArray

open Cert.KernelIdeal Cert.KernelIdeal.Gen Cert.KernelIdeal.Chain
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The lane value is the same in every lane: one number spread over the block. -/
theorem lane_const (S T : Vec F S512x512 .f32) (y y' : S1x1x128.Idx) : k0_pay1 S T y = k0_pay1 S T y' := rfl

/-- The output window's index map: batch, 0, 0. -/
theorem idxO_facts : ∀ t : Fin cfg0.N, win0_4.index t (0 : Fin 3) = t.val / 4 ∧ win0_4.index t (1 : Fin 3) = 0 ∧ win0_4.index t (2 : Fin 3) = 0 :=
  (by decide +kernel : ∀ t : Fin grid0.N, win0_4.index t (0 : Fin 3) = t.val / 4 ∧ win0_4.index t (1 : Fin 3) = 0 ∧ win0_4.index t (2 : Fin 3) = 0)

/-- No block of the output window is cut at the array's end. -/
theorem xsizeO_facts : ∀ t : Fin cfg0.N, win0_4.xsize (grid0.coords t) (0 : Fin 3) = 1 ∧ win0_4.xsize (grid0.coords t) (1 : Fin 3) = 1 ∧ win0_4.xsize (grid0.coords t) (2 : Fin 3) = 128 :=
  (by decide +kernel : ∀ t : Fin grid0.N, win0_4.xsize (grid0.coords t) (0 : Fin 3) = 1 ∧ win0_4.xsize (grid0.coords t) (1 : Fin 3) = 1 ∧ win0_4.xsize (grid0.coords t) (2 : Fin 3) = 128)

/-- The result array: row `b` holds batch `b`'s lane value in every lane. -/
def outArr (c : Dev nD) : Vec F S16x1x128 .f32 :=
  fun y => k0_pay1 (accS m c ⟨(y 0).val, (y 0).isLt⟩) (accT m c ⟨(y 0).val, (y 0).isLt⟩) (ix3 0 0 0)

/-- What the write-back after batch `b`'s last tile writes is block `b` of that array. -/
theorem flushed_pt (c : Dev nD) (b : Fin 16) :
    (dats m 0 c).flushed 4 (pt b 3 (by omega))
      = ((cfg0.win 4).blk (pt b 3 (by omega))).view.read (Elt F) (outArr m c) := by
  obtain ⟨h0, -, -⟩ := idxO_facts (pt b 3 (by omega))
  rw [pt_val] at h0
  have hb := b.isLt
  funext y
  rw [View.read_apply]
  show (dats m 0 c).after 4 (pt b 3 (by omega)) _ = outArr m c _
  rw [after0_4, out_batch]
  have hy : (y 0).val < 1 := (y 0).isLt
  have key : ∀ b' : Fin 16, b'.val = b.val →
      k0_pay1 (accS m c b) (accT m c b) (ix3 0 0 0) = k0_pay1 (accS m c b') (accT m c b') (ix3 0 0 0) := by
    intro b' hb'
    obtain rfl : b' = b := Fin.ext hb'
    rfl
  refine (lane_const _ _ _ (ix3 0 0 0)).trans (key _ ?_)
  show win0_4.index (pt b 3 (by omega)) 0 * 1 + 1 * (y 0).val = b.val
  rw [h0]; omega

/-- At every point that writes the output back. -/
theorem flushed_eq (c : Dev nD) (t : Fin cfg0.N) (hf : (cfg0.win 4).flush t = true) :
    (dats m 0 c).flushed 4 t = ((cfg0.win 4).blk t).view.read (Elt F) (outArr m c) := by
  have h3 : t.val % 4 = 3 := (flush0_4 t).mp hf
  have hN : cfg0.N = 64 := N_0
  have hb : t.val / 4 < 16 := by have := t.isLt; omega
  have ht : t = pt ⟨t.val / 4, hb⟩ 3 (by omega) := Fin.ext (by rw [pt_val]; show t.val = 4 * (t.val / 4) + 3; omega)
  have h := flushed_pt m c ⟨t.val / 4, hb⟩
  rw [← ht] at h
  exact h

/-- The sixteen blocks cover the array: row `b` lies in the block written after batch `b`'s last tile. -/
theorem covered (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0).val < 16 := (i 0).isLt
  have h1 : (i 1).val < 1 := (i 1).isLt
  have h2 : (i 2).val < 128 := (i 2).isLt
  obtain ⟨T, hf, e0, e1, e2, x0, x1, x2⟩ : ∃ T : Fin cfg0.N, (cfg0.win 4).flush T = true
      ∧ win0_4.index T (0 : Fin 3) = (i 0).val ∧ win0_4.index T (1 : Fin 3) = 0 ∧ win0_4.index T (2 : Fin 3) = 0
      ∧ win0_4.xsize (grid0.coords T) (0 : Fin 3) = 1 ∧ win0_4.xsize (grid0.coords T) (1 : Fin 3) = 1
      ∧ win0_4.xsize (grid0.coords T) (2 : Fin 3) = 128 := by
    refine ⟨pt ⟨(i 0).val, h0⟩ 3 (by omega), (flush0_4 _).mpr (by rw [pt_val]; omega), ?_⟩
    obtain ⟨e0, e1, e2⟩ := idxO_facts (pt ⟨(i 0).val, h0⟩ 3 (by omega))
    obtain ⟨x0, x1, x2⟩ := xsizeO_facts (pt ⟨(i 0).val, h0⟩ 3 (by omega))
    rw [pt_val] at e0
    exact ⟨by rw [e0]; show (4 * (i 0).val + 3) / 4 = (i 0).val; omega, e1, e2, x0, x1, x2⟩
  refine ⟨T, hf, ?_⟩
  have hset : ((cfg0.win 4).blk T).view.set = (win0_4.rect T).set := View.set_slice_whole main_v0 _
  rw [hset, Rect.mem_set_unit]
  intro a
  match a with
  | ⟨0, _⟩ =>
    show win0_4.index T 0 * win0_4.size 0 ≤ (i 0 : Nat)
      ∧ (i 0 : Nat) < win0_4.index T 0 * win0_4.size 0 + win0_4.xsize (grid0.coords T) 0
    rw [e0, x0, show win0_4.size 0 = 1 from rfl]; omega
  | ⟨1, _⟩ =>
    show win0_4.index T 1 * win0_4.size 1 ≤ (i 1 : Nat)
      ∧ (i 1 : Nat) < win0_4.index T 1 * win0_4.size 1 + win0_4.xsize (grid0.coords T) 1
    rw [e1, x1, show win0_4.size 1 = 1 from rfl]; omega
  | ⟨2, _⟩ =>
    show win0_4.index T 2 * win0_4.size 2 ≤ (i 2 : Nat)
      ∧ (i 2 : Nat) < win0_4.index T 2 * win0_4.size 2 + win0_4.xsize (grid0.coords T) 2
    rw [e2, x2, show win0_4.size 2 = 128 from rfl]; omega

/-- So the result array after the region is `outArr`. -/
theorem out_final (c : Dev nD) : (dats m 0 c).arrAt 4 cfg0.N = outArr m c :=
  (dats m 0 c).arrAt_eq_of_cover 4 (outArr m c) (flushed_eq m c) (covered c)

end Cert.KernelIdeal.OutArray

end
-- ==== Proof.BlockRead.lean ====
/-
  An input block read at an index, in terms of its argument array.
  Each of the four inputs is staged in blocks [1, 512, 1024] whose index map sends grid point (batch, tile) to block
  (batch, 0, tile): entry (0, i, r) of the block at tile `k` of batch `b` is the argument at (b, i, 1024 k + r).
-/
import proofs.«142705_j85555748537092_1_alg».proof.Proof.Gen.KernelIdeal.Frame
import proofs.«142705_j85555748537092_1_alg».proof.Proof.KernelChain
import proofs.«142705_j85555748537092_1_alg».proof.Proof.TileSum
import Idealize.ShloMosaic.Lib.Pipeline.Value

set_option maxRecDepth 16384

noncomputable section

namespace Cert.KernelIdeal.BlockRead

open Cert.KernelIdeal Cert.KernelIdeal.Gen Cert.KernelIdeal.Chain
open Idealize.ShloMosaic Idealize.ShloMosaic.TcCoe Idealize.ShloMosaic.ValueIdx Idealize.SL.Sem Cert.TileSum

variable {F : FTy → Type} [FloatOps F]
variable (m : (ℓ : Loc nD τ sig) → Buf (Elt F) ℓ)

/-- Window 0's index map: batch, 0, tile. -/
theorem idxA_facts : ∀ t : Fin cfg0.N, win0_0.index t (0 : Fin 3) = t.val / 4 ∧ win0_0.index t (1 : Fin 3) = 0 ∧ win0_0.index t (2 : Fin 3) = t.val % 4 :=
  (by decide +kernel : ∀ t : Fin grid0.N, win0_0.index t (0 : Fin 3) = t.val / 4 ∧ win0_0.index t (1 : Fin 3) = 0 ∧ win0_0.index t (2 : Fin 3) = t.val % 4)

/-- Window 0's block at tile `k` of batch `b` reads argument 0 at (b, i, 1024 k + r). -/
theorem blkA_apply (c : Dev nD) (b : Fin 16) (k : ℕ) (hk : k < 4) (i : Fin 512) (r : Fin 1024) :
    blkA m c (pt b k hk) (ix3 0 i r) = m ((c : Thread nD τ).loc main_arg0) (ix3 b i (tileIdx ⟨k, hk⟩ r)) := by
  obtain ⟨h0, h1, h2⟩ := idxA_facts (pt b k hk)
  rw [pt_val] at h0 h2
  have hb := b.isLt
  show iblk m c 0 (pt b k hk) (ix3 0 i r) = _
  unfold iblk
  rw [View.read_apply]
  show m ((c : Thread nD τ).loc main_arg0) _ = m ((c : Thread nD τ).loc main_arg0) _
  refine congrArg (m ((c : Thread nD τ).loc main_arg0)) (funext fun a => Fin.ext ?_)
  match a with
  | ⟨0, _⟩ => show win0_0.index (pt b k hk) 0 * 1 + 1 * 0 = b.val; rw [h0]; omega
  | ⟨1, _⟩ => show win0_0.index (pt b k hk) 1 * 512 + 1 * i.val = i.val; rw [h1]; omega
  | ⟨2, _⟩ => show win0_0.index (pt b k hk) 2 * 1024 + 1 * r.val = 1024 * k + r.val; rw [h2]; omega

/-- Window 1's index map: batch, 0, tile. -/
theorem idxB_facts : ∀ t : Fin cfg0.N, win0_1.index t (0 : Fin 3) = t.val / 4 ∧ win0_1.index t (1 : Fin 3) = 0 ∧ win0_1.index t (2 : Fin 3) = t.val % 4 :=
  (by decide +kernel : ∀ t : Fin grid0.N, win0_1.index t (0 : Fin 3) = t.val / 4 ∧ win0_1.index t (1 : Fin 3) = 0 ∧ win0_1.index t (2 : Fin 3) = t.val % 4)

/-- Window 1's block at tile `k` of batch `b` reads argument 1 at (b, i, 1024 k + r). -/
theorem blkB_apply (c : Dev nD) (b : Fin 16) (k : ℕ) (hk : k < 4) (i : Fin 512) (r : Fin 1024) :
    blkB m c (pt b k hk) (ix3 0 i r) = m ((c : Thread nD τ).loc main_arg1) (ix3 b i (tileIdx ⟨k, hk⟩ r)) := by
  obtain ⟨h0, h1, h2⟩ := idxB_facts (pt b k hk)
  rw [pt_val] at h0 h2
  have hb := b.isLt
  show iblk m c 1 (pt b k hk) (ix3 0 i r) = _
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ => show win0_1.index (pt b k hk) 0 * 1 + 1 * 0 = b.val; rw [h0]; omega
  | ⟨1, _⟩ => show win0_1.index (pt b k hk) 1 * 512 + 1 * i.val = i.val; rw [h1]; omega
  | ⟨2, _⟩ => show win0_1.index (pt b k hk) 2 * 1024 + 1 * r.val = 1024 * k + r.val; rw [h2]; omega

/-- Window 2's index map: batch, 0, tile. -/
theorem idxC_facts : ∀ t : Fin cfg0.N, win0_2.index t (0 : Fin 3) = t.val / 4 ∧ win0_2.index t (1 : Fin 3) = 0 ∧ win0_2.index t (2 : Fin 3) = t.val % 4 :=
  (by decide +kernel : ∀ t : Fin grid0.N, win0_2.index t (0 : Fin 3) = t.val / 4 ∧ win0_2.index t (1 : Fin 3) = 0 ∧ win0_2.index t (2 : Fin 3) = t.val % 4)

/-- Window 2's block at tile `k` of batch `b` reads argument 2 at (b, i, 1024 k + r). -/
theorem blkC_apply (c : Dev nD) (b : Fin 16) (k : ℕ) (hk : k < 4) (i : Fin 512) (r : Fin 1024) :
    blkC m c (pt b k hk) (ix3 0 i r) = m ((c : Thread nD τ).loc main_arg2) (ix3 b i (tileIdx ⟨k, hk⟩ r)) := by
  obtain ⟨h0, h1, h2⟩ := idxC_facts (pt b k hk)
  rw [pt_val] at h0 h2
  have hb := b.isLt
  show iblk m c 2 (pt b k hk) (ix3 0 i r) = _
  unfold iblk
  rw [View.read_apply]
  show m ((c : Thread nD τ).loc main_arg2) _ = m ((c : Thread nD τ).loc main_arg2) _
  refine congrArg (m ((c : Thread nD τ).loc main_arg2)) (funext fun a => Fin.ext ?_)
  match a with
  | ⟨0, _⟩ => show win0_2.index (pt b k hk) 0 * 1 + 1 * 0 = b.val; rw [h0]; omega
  | ⟨1, _⟩ => show win0_2.index (pt b k hk) 1 * 512 + 1 * i.val = i.val; rw [h1]; omega
  | ⟨2, _⟩ => show win0_2.index (pt b k hk) 2 * 1024 + 1 * r.val = 1024 * k + r.val; rw [h2]; omega

/-- Window 3's index map: batch, 0, tile. -/
theorem idxD_facts : ∀ t : Fin cfg0.N, win0_3.index t (0 : Fin 3) = t.val / 4 ∧ win0_3.index t (1 : Fin 3) = 0 ∧ win0_3.index t (2 : Fin 3) = t.val % 4 :=
  (by decide +kernel : ∀ t : Fin grid0.N, win0_3.index t (0 : Fin 3) = t.val / 4 ∧ win0_3.index t (1 : Fin 3) = 0 ∧ win0_3.index t (2 : Fin 3) = t.val % 4)

/-- Window 3's block at tile `k` of batch `b` reads argument 3 at (b, i, 1024 k + r). -/
theorem blkD_apply (c : Dev nD) (b : Fin 16) (k : ℕ) (hk : k < 4) (i : Fin 512) (r : Fin 1024) :
    blkD m c (pt b k hk) (ix3 0 i r) = m ((c : Thread nD τ).loc main_arg3) (ix3 b i (tileIdx ⟨k, hk⟩ r)) := by
  obtain ⟨h0, h1, h2⟩ := idxD_facts (pt b k hk)
  rw [pt_val] at h0 h2
  have hb := b.isLt
  show iblk m c 3 (pt b k hk) (ix3 0 i r) = _
  unfold iblk
  rw [View.read_apply]
  show m ((c : Thread nD τ).loc main_arg3) _ = m ((c : Thread nD τ).loc main_arg3) _
  refine congrArg (m ((c : Thread nD τ).loc main_arg3)) (funext fun a => Fin.ext ?_)
  match a with
  | ⟨0, _⟩ => show win0_3.index (pt b k hk) 0 * 1 + 1 * 0 = b.val; rw [h0]; omega
  | ⟨1, _⟩ => show win0_3.index (pt b k hk) 1 * 512 + 1 * i.val = i.val; rw [h1]; omega
  | ⟨2, _⟩ => show win0_3.index (pt b k hk) 2 * 1024 + 1 * r.val = 1024 * k + r.val; rw [h2]; omega

end Cert.KernelIdeal.BlockRead

end
-- ==== Proof.PayloadStep.lean ====
/-
  One accumulator step read at an index, over the extended reals: it adds, to entry (i, j) of the old accumulator,
  the tile's product Σ_r top(0,i,r) · bot(0,j,r). The two casts to the narrower float format are the identity here,
  and a block [1, 512, 1024] viewed [512, 1024] reads (0, i, r) at (i, r). A cleared accumulator holds zero.
-/
import proofs.«142705_j85555748537092_1_alg».proof.Proof.Gen.KernelIdeal.Skeleton
import proofs.«142705_j85555748537092_1_alg».proof.Proof.TileSum
import Idealize.ShloMosaic.Lib.ValueLayout
import Idealize.ShloMosaic.Lib.Pipeline.Value
import Idealize.ShloMosaic.PureOps.Ideal.Laws

noncomputable section

open scoped BigOperators

namespace Cert.KernelIdeal.PayloadStep

open Cert.KernelIdeal Cert.KernelIdeal.Gen
open Idealize.ShloMosaic Idealize.ShloMosaic.TcCoe Idealize.ShloMosaic.ValueIdx Cert.TileSum

/-! ## The tile product -/

/-- The left operand is read at the output's row … -/
theorem prod_lhs_0 (j : S512x512.Idx) (q : dot_S512x1024_S512x1024_S512x512_1_1_0_0_n_n.contr.Idx) :
    (dot_S512x1024_S512x1024_S512x512_1_1_0_0_n_n.lhsIdx j q 0).val = (j 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- … and at the contracted position; -/
theorem prod_lhs_1 (j : S512x512.Idx) (q : dot_S512x1024_S512x1024_S512x512_1_1_0_0_n_n.contr.Idx) :
    (dot_S512x1024_S512x1024_S512x512_1_1_0_0_n_n.lhsIdx j q 1).val = (q ⟨0, by decide⟩).val :=
  dot_S512x1024_S512x1024_S512x512_1_1_0_0_n_n.lhsIdx_val_of_single rfl j q
/-- the right operand at the output's column … -/
theorem prod_rhs_0 (j : S512x512.Idx) (q : dot_S512x1024_S512x1024_S512x512_1_1_0_0_n_n.contr.Idx) :
    (dot_S512x1024_S512x1024_S512x512_1_1_0_0_n_n.rhsIdx j q 0).val = (j 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- … and at the contracted position. -/
theorem prod_rhs_1 (j : S512x512.Idx) (q : dot_S512x1024_S512x1024_S512x512_1_1_0_0_n_n.contr.Idx) :
    (dot_S512x1024_S512x1024_S512x512_1_1_0_0_n_n.rhsIdx j q 1).val = (q ⟨0, by decide⟩).val :=
  dot_S512x1024_S512x1024_S512x512_1_1_0_0_n_n.rhsIdx_val_of_single rfl j q

/-- Entry (i, j) of a tile's product into the zero accumulator: Σ_r top(i, r) · bot(j, r). -/
theorem tileProd_apply (top bot : FVec Ideal S512x1024 .bf16) (i j : Fin 512) :
    matmul dot_S512x1024_S512x1024_S512x512_1_1_0_0_n_n none top bot (constant S512x512 .f32 0x00000000#32) (ix2 i j)
      = ∑ r : Fin 1024, top (ix2 i r) * bot (ix2 j r) := by
  simp only [matmul]
  rw [Ideal.matmul_constant_zero_apply, ← Equiv.sum_comp (contrEquiv1 dot_S512x1024_S512x1024_S512x512_1_1_0_0_n_n 1024 rfl rfl).symm]
  refine Finset.sum_congr rfl fun r _ => ?_
  have hk := contrEquiv1_symm_val dot_S512x1024_S512x1024_S512x512_1_1_0_0_n_n 1024 rfl rfl r
  have el : dot_S512x1024_S512x1024_S512x512_1_1_0_0_n_n.lhsIdx (ix2 i j) ((contrEquiv1 dot_S512x1024_S512x1024_S512x512_1_1_0_0_n_n 1024 rfl rfl).symm r) = ix2 i r := funext fun a => Fin.ext (by
    match a with
    | ⟨0, _⟩ => exact prod_lhs_0 _ _
    | ⟨1, _⟩ => exact (prod_lhs_1 _ _).trans hk)
  have er : dot_S512x1024_S512x1024_S512x512_1_1_0_0_n_n.rhsIdx (ix2 i j) ((contrEquiv1 dot_S512x1024_S512x1024_S512x512_1_1_0_0_n_n 1024 rfl rfl).symm r) = ix2 j r := funext fun a => Fin.ext (by
    match a with
    | ⟨0, _⟩ => exact prod_rhs_0 _ _
    | ⟨1, _⟩ => exact (prod_rhs_1 _ _).trans hk)
  rw [el, er]

/-! ## One accumulator step -/

/-- The first accumulator's step: the old entry plus Σ_r second(0,i,r) · first(0,j,r). -/
theorem step4_apply (v3 v6 : Vec Ideal S1x512x1024 .f32) (v15 : Vec Ideal S512x512 .f32) (i j : Fin 512) :
    k0_pay4 (F := Ideal) v3 v6 v15 (ix2 i j) = v15 (ix2 i j) + ∑ r : Fin 1024, v6 (ix3 0 i r) * v3 (ix3 0 j r) := by
  unfold k0_pay4
  rw [shapeCast_self]
  refine (addf_apply _ _ _).trans ?_
  rw [tileProd_apply]
  refine congrArg (v15 (ix2 i j) + ·) (Finset.sum_congr rfl fun r _ => ?_)
  rw [truncf_apply, truncf_apply, shapeCast_1ab_ab_apply, shapeCast_1ab_ab_apply]

/-- The second accumulator's step: the same function of the other pair. -/
theorem step5_apply (v9 v12 : Vec Ideal S1x512x1024 .f32) (v21 : Vec Ideal S512x512 .f32) (i j : Fin 512) :
    k0_pay5 (F := Ideal) v9 v12 v21 (ix2 i j) = v21 (ix2 i j) + ∑ r : Fin 1024, v12 (ix3 0 i r) * v9 (ix3 0 j r) := by
  unfold k0_pay5
  rw [shapeCast_self]
  refine (addf_apply _ _ _).trans ?_
  rw [tileProd_apply]
  refine congrArg (v21 (ix2 i j) + ·) (Finset.sum_congr rfl fun r _ => ?_)
  rw [truncf_apply, truncf_apply, shapeCast_1ab_ab_apply, shapeCast_1ab_ab_apply]

/-- The cleared accumulators hold zero. -/
theorem clear2_apply (y : S512x512.Idx) : k0_pay2 (F := Ideal) y = 0 := by
  unfold k0_pay2
  rw [shapeCast_self]
  show Ideal.ofBits .f32 0x00000000#32 = 0
  exact Ideal.ofBits_zero_f32
theorem clear3_apply (y : S512x512.Idx) : k0_pay3 (F := Ideal) y = 0 := by
  unfold k0_pay3
  rw [shapeCast_self]
  show Ideal.ofBits .f32 0x00000000#32 = 0
  exact Ideal.ofBits_zero_f32

end Cert.KernelIdeal.PayloadStep

end
-- ==== Proof.KernelGram.lean ====
/-
  The two accumulators after a batch's four tiles are the batch's two Gram matrices.
  Each step adds the tile's product; the tile's block reads its argument at time 1024 k + r; so after the four
  steps from the cleared accumulator, entry (i, j) is (((0 + M₀) + M₁) + M₂) + M₃ with M_k the sum over tile k, which is
  the sum over the whole time axis: the Gram entry. Only associativity and commutativity of the sum are used.
-/
import proofs.«142705_j85555748537092_1_alg».proof.Proof.KernelChain
import proofs.«142705_j85555748537092_1_alg».proof.Proof.BlockRead
import proofs.«142705_j85555748537092_1_alg».proof.Proof.PayloadStep
import proofs.«142705_j85555748537092_1_alg».proof.Proof.Spec
import proofs.«142705_j85555748537092_1_alg».proof.Proof.TileSum

noncomputable section

open scoped BigOperators

namespace Cert.KernelIdeal.Gram

open Cert.KernelIdeal Cert.KernelIdeal.Gen Cert.KernelIdeal.Chain Cert.KernelIdeal.BlockRead Cert.KernelIdeal.PayloadStep
open Idealize.ShloMosaic Idealize.ShloMosaic.TcCoe Idealize.ShloMosaic.ValueIdx Idealize.SL.Sem Cert.TileSum Cert.FspSpec

variable (m : (ℓ : Loc nD τ sig) → Buf (Elt Ideal) ℓ)

/-- The four argument arrays of core `c`, at their literal type. -/
abbrev arr0 (c : Dev nD) : Arr := m ((c : Thread nD τ).loc main_arg0)
abbrev arr1 (c : Dev nD) : Arr := m ((c : Thread nD τ).loc main_arg1)
abbrev arr2 (c : Dev nD) : Arr := m ((c : Thread nD τ).loc main_arg2)
abbrev arr3 (c : Dev nD) : Arr := m ((c : Thread nD τ).loc main_arg3)

/-- The first accumulator is the Gram matrix of (second argument, first argument). -/
theorem accS_apply (c : Dev nD) (b : Fin 16) (i j : Fin 512) :
    accS m c b (ix2 i j) = gram (arr1 m c) (arr0 m c) b i j := by
  unfold accS
  rw [step4_apply, step4_apply, step4_apply, step4_apply, clear2_apply]
  simp only [blkA_apply, blkB_apply]
  have hs : gram (arr1 m c) (arr0 m c) b i j
      = ∑ q : Fin 4, ∑ r : Fin 1024, arr1 m c (ix3 b i (tileIdx q r)) * arr0 m c (ix3 b j (tileIdx q r)) :=
    sum_tiles _
  rw [hs, ← chain_four]
  rfl

/-- The second accumulator is the Gram matrix of (fourth argument, third argument). -/
theorem accT_apply (c : Dev nD) (b : Fin 16) (i j : Fin 512) :
    accT m c b (ix2 i j) = gram (arr3 m c) (arr2 m c) b i j := by
  unfold accT
  rw [step5_apply, step5_apply, step5_apply, step5_apply, clear3_apply]
  simp only [blkC_apply, blkD_apply]
  have hs : gram (arr3 m c) (arr2 m c) b i j
      = ∑ q : Fin 4, ∑ r : Fin 1024, arr3 m c (ix3 b i (tileIdx q r)) * arr2 m c (ix3 b j (tileIdx q r)) :=
    sum_tiles _
  rw [hs, ← chain_four]
  rfl

end Cert.KernelIdeal.Gram

end
-- ==== Proof.PayloadLane.lean ====
/-
  The value the last tile writes to every lane of the output block, over the extended reals: the sum over all
  (i, j) of (S(i,j) · 2⁻¹² − T(i,j) · 2⁻¹²)². The body squares the difference entry by entry, views the 512×512
  result as [1, 512, 512] and reduces it over both long axes into a one-element vector — a reduction into a shape
  whose axes all have size one is the sum over every source index — then spreads that one number over the lanes.
  The body's text is first split, for every float instance, into the entrywise part and the reduce-and-spread part;
  only then is the second part read at the ideal instance, over an arbitrary vector.
-/
import proofs.«142705_j85555748537092_1_alg».proof.Proof.Gen.KernelIdeal.Skeleton
import proofs.«142705_j85555748537092_1_alg».proof.Proof.TileSum
import Idealize.ShloMosaic.Lib.ValueLayout
import Idealize.ShloMosaic.Lib.Pipeline.Value
import Idealize.ShloMosaic.PureOps.Ideal.Laws

noncomputable section

open scoped BigOperators

namespace Cert.KernelIdeal.PayloadLane

open Cert.KernelIdeal Cert.KernelIdeal.Gen
open Idealize.ShloMosaic Idealize.ShloMosaic.TcCoe Idealize.ShloMosaic.ValueIdx Cert.TileSum

section AnyInstance
variable {F : FTy → Type} [FloatOps F]

/-- The squared difference of the two scaled accumulators, entry by entry: the vector the body reduces. -/
def sqd (S T : Vec F S512x512 .f32) : FVec F S512x512 .f32 :=
  mulf (subf (mulf S (broadcast S512x512 (Scalar.ofBits .f32 0x39800000#32))) (mulf T (broadcast S512x512 (Scalar.ofBits .f32 0x39800000#32))))
    (subf (mulf S (broadcast S512x512 (Scalar.ofBits .f32 0x39800000#32))) (mulf T (broadcast S512x512 (Scalar.ofBits .f32 0x39800000#32))))

/-- Reduce a 512×512 vector to one number and spread it over the 128 lanes of the output block. -/
def spread (hφ : FKind.Formats .f32) (hacc : (0x00000000#32 : BitVec 32) = FKind.add.neutral .f32 hφ)
    (v : FVec F S512x512 .f32) : FVec F S1x1x128 .f32 :=
  shapeCast S1x1x128
    (broadcast S1x128
      (extractAt ![0, 0, 0]
        (shapeCast S1x1x1
          (multiReduction .add [1, 2] S1 (shapeCast S1x512x512 v shapeCasts_S512x512_S1x512x512) 0x00000000#32
            reduces_S1x512x512_S1 hφ hacc)
          shapeCasts_S1_S1x1x1)
        inpos_S1x1x1_p0_0_0))
    shapeCasts_S1x128_S1x1x128

/-- The body's lane value is the spread of the squared difference, at every float instance. -/
theorem pay1_eq (S T : Vec F S512x512 .f32) : k0_pay1 S T = spread (.inl rfl) rfl (sqd S T) := rfl

end AnyInstance

/-- At (i, j) the squared difference is (S(i,j) · 2⁻¹² − T(i,j) · 2⁻¹²)². -/
theorem sqd_apply (S T : Vec Ideal S512x512 .f32) (i j : Fin 512) :
    sqd S T (ix2 i j)
      = (S (ix2 i j) * Ideal.ofBits .f32 0x39800000#32 - T (ix2 i j) * Ideal.ofBits .f32 0x39800000#32)
        * (S (ix2 i j) * Ideal.ofBits .f32 0x39800000#32 - T (ix2 i j) * Ideal.ofBits .f32 0x39800000#32) := by
  unfold sqd
  simp only [mulf_apply, subf_apply, broadcast_apply, Ideal.ofBits_def]

/-- The one-element shape's axis has size one. -/
theorem unit_axes (b : Fin S1.rank) : S1.size b = 1 := by
  match b with | ⟨0, _⟩ => rfl

/-- Over the extended reals a reduction of a [1, 512, 512] vector over its two long axes into the one-element shape
    is the double sum over rows and columns. -/
theorem total_sum (src : FVec Ideal S1x512x512 .f32) (hφ : FKind.Formats .f32)
    (hacc : (0x00000000#32 : BitVec 32) = FKind.add.neutral .f32 hφ) (k : S1.Idx) :
    multiReduction .add [1, 2] S1 src 0x00000000#32 reduces_S1x512x512_S1 hφ hacc k
      = ∑ i : Fin 512, ∑ j : Fin 512, src (ix3 0 i j) := by
  refine (Ideal.multiReduction_add_total src 0x00000000#32 reduces_S1x512x512_S1 unit_axes hφ hacc k).trans ?_
  rw [sum_idx3, Fin.sum_univ_one]

/-- Every lane of the spread of `v` is Σ_{i,j} v(i,j). -/
theorem spread_apply (hφ : FKind.Formats .f32) (hacc : (0x00000000#32 : BitVec 32) = FKind.add.neutral .f32 hφ)
    (v : FVec Ideal S512x512 .f32) (y : S1x1x128.Idx) :
    spread hφ hacc v y = ∑ i : Fin 512, ∑ j : Fin 512, v (ix2 i j) := by
  unfold spread
  unfold shapeCast broadcast extractAt
  dsimp only
  refine (total_sum _ hφ hacc _).trans ?_
  exact Finset.sum_congr rfl fun i _ => Finset.sum_congr rfl fun j _ =>
    shapeCast_ab_1ab_apply v shapeCasts_S512x512_S1x512x512 0 i j

/-- Every lane of the output block holds Σ_{i,j} (S(i,j) · 2⁻¹² − T(i,j) · 2⁻¹²)². -/
theorem lane_apply (S T : Vec Ideal S512x512 .f32) (y : S1x1x128.Idx) :
    k0_pay1 (F := Ideal) S T y = ∑ i : Fin 512, ∑ j : Fin 512,
      (S (ix2 i j) * Ideal.ofBits .f32 0x39800000#32 - T (ix2 i j) * Ideal.ofBits .f32 0x39800000#32)
        * (S (ix2 i j) * Ideal.ofBits .f32 0x39800000#32 - T (ix2 i j) * Ideal.ofBits .f32 0x39800000#32) := by
  refine (congrFun (pay1_eq S T) y).trans ((spread_apply (.inl rfl) rfl (sqd S T) y).trans ?_)
  exact Finset.sum_congr rfl fun i _ => Finset.sum_congr rfl fun j _ => sqd_apply S T i j

end Cert.KernelIdeal.PayloadLane

end
-- ==== Proof.KernelRun.lean ====
/-
  The kernel program's result at the ideal instance is the loss of Spec.lean.
  Row `b` of the array the region leaves holds batch `b`'s sum of squared differences in every lane (the lane
  value of the batch's two Gram matrices); the host lines after the region take lane 0 of every row, sum the sixteen
  numbers from zero and divide by 2²².
-/
import proofs.«142705_j85555748537092_1_alg».proof.Proof.Gen.KernelIdeal.Frame
import proofs.«142705_j85555748537092_1_alg».proof.Proof.OutArray
import proofs.«142705_j85555748537092_1_alg».proof.Proof.KernelGram
import proofs.«142705_j85555748537092_1_alg».proof.Proof.PayloadLane
import proofs.«142705_j85555748537092_1_alg».proof.Proof.Spec
import proofs.«142705_j85555748537092_1_alg».proof.Proof.TileSum
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.KRun

open Cert.KernelIdeal Cert.KernelIdeal.Gen Cert.KernelIdeal.Chain Cert.KernelIdeal.OutArray Cert.KernelIdeal.Gram
open Cert.KernelIdeal.PayloadLane
open Idealize.ShloMosaic Idealize.ShloMosaic.TcCoe Idealize.ShloMosaic.ValueIdx Idealize.SL.Sem Cert.TileSum Cert.FspSpec
open Idealize.ShloMosaic.Pipeline (Dat)

variable (m : (ℓ : Loc nD τ sig) → Buf (Elt Ideal) ℓ) (ρ : Dev nD → PrngReg)

/-- Row `b` of the result array, in any lane, is the batch's sum of squared differences. -/
theorem outArr_apply (c : Dev nD) (b : Fin 16) (u : Fin 1) (l : Fin 128) :
    outArr m c (ix3 b u l) = batchSum (arr0 m c) (arr1 m c) (arr2 m c) (arr3 m c) b := by
  show k0_pay1 (F := Ideal) (accS m c b) (accT m c b) (ix3 0 0 0) = _
  rw [lane_apply]
  unfold batchSum sqDiff
  refine Finset.sum_congr rfl fun i _ => Finset.sum_congr rfl fun j _ => ?_
  rw [accS_apply, accT_apply]

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The slice [0:16, 0:1, 0:1] viewed as a vector of sixteen reads, at `b`, lane 0 of row `b`. -/
theorem firstLane_apply (X : Vec Ideal S16x1x128 .f32) (b : Fin 16) :
    shapeCast S16 (extractStridedSlice S16x1x1 ![0, 0, 0] X slices_S16x1x128_S16x1x1_0_0_0) shapeCasts_S16x1x1_S16 (ix1 b)
      = X (ix3 b 0 0) := by
  rw [shapeCast_apply _ shapeCasts_S16x1x1_S16 (ix1 b) (ix3 b 0 0) (by
    rw [Shape.rowMajor_val_three, Shape.rowMajor_val_one]
    show (b.val * 1 + 0) * 1 + 0 = b.val
    omega)]
  exact extractStridedSlice_apply _ X _ (ix3 b 0 0) (ix3 b 0 0) (fun a => by
    match a with
    | ⟨0, _⟩ => show b.val = 0 + b.val; omega
    | ⟨1, _⟩ => rfl
    | ⟨2, _⟩ => rfl)

/-- The host lines after the region turn the result array into the loss. -/
theorem tail_eq (c : Dev nD) :
    Pipeline.afterTail₀ cfgs (dats m) 0 (V0 m) [hostOps1] c main_v4
      = fun _ => loss (arr0 m c) (arr1 m c) (arr2 m c) (arr3 m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v0)
      = outArr m c :=
    (Pipeline.withArrays_arr spec0 launch0.win.arr_inj c _ _ 4).trans (out_final m c)
  rw [hw]
  funext x
  show FloatOps.hostDivf (Host.reduceAdd (F := Ideal)
      (shapeCast S16 (extractStridedSlice S16x1x1 ![0, 0, 0] (outArr m c) slices_S16x1x128_S16x1x1_0_0_0) shapeCasts_S16x1x1_S16)
      (constant S_ .f32 0x00000000#32) reducesTo_S16_S_d0 h_S_ x) (Ideal.ofBits .f32 0x4A800000#32) = _
  rw [Ideal.hostDivf_def]
  unfold loss
  refine congrArg (fun s => Ideal.div s (Ideal.ofBits .f32 0x4A800000#32)) ?_
  simp only [Host.reduceAdd, Ideal.hostReduceAdd_def]
  refine (Ideal.hostReduceAdd_total reducesTo_S16_S_d0 (fun b => b.elim0) _ _ x).trans ?_
  rw [sum_idx1]
  show Ideal.ofBits .f32 0x00000000#32 + _ = _
  rw [Ideal.ofBits_zero_f32, zero_add]
  refine Finset.sum_congr rfl fun b _ => ?_
  rw [firstLane_apply, outArr_apply]

/-- The result buffer is unscoped and is no window's array: it is one of the buffers the region bypasses. -/
theorem result_bypasses : main_v4 ∈ Pipeline.restRefs sig (cfgs 0).spec :=
  Pipeline.mem_restRefs_of main_v4 rfl (fun w => by fin_cases w <;> decide)

/-- THE RUN, READ: at the ideal instance every weakly fair execution of the kernel program terminates with the result
    at the loss of the argument arrays, and the arguments unchanged. -/
theorem run : θ_run defs (onTc (τ := τ) (main (F := Ideal))) ⟨m, fun _ => 0, ρ⟩ (fun r => ∀ c : Dev nD,
      r.2.mem ((c.tc : Thread nD τ).loc main_v4) = (fun _ => loss (arr0 m c) (arr1 m c) (arr2 m c) (arr3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v4 result_bypasses).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KRun

end
-- ==== Proof.lean ====
/-
  The mean squared difference of two pairs of Gram matrices, tiled over time against one whole computation.

  Both programs take four arrays s1, s2, t1, t2 of shape [16, 512, 4096] (batch, channel, time). For each batch the
  Gram matrix of a pair (top, bot) has entry (i, j) = Σ_u top(i, u) · bot(j, u) over the 4096 time steps; the loss is
  the mean over batch, row and column of (gram(s2, s1)/4096 − gram(t2, t1)/4096)².

  The reference computes each Gram matrix by one batched product over the whole time axis, divides by 4096.0,
  subtracts, squares, sums over all three axes from zero and divides by 2²². The kernel cuts the time axis into four
  tiles of 1024: on a batch's first tile it clears two 512×512 accumulators, on every tile it adds the tile's two
  products, and after the fourth tile it writes Σ_{i,j} (S(i,j) · 2⁻¹² − T(i,j) · 2⁻¹²)² to every lane of the batch's
  output block; the host then takes lane 0 of the sixteen blocks, sums them from zero and divides by 2²².

  Over the extended reals the two agree, on all inputs: the casts of the products' operands to a narrower float format
  are the identity; an accumulator that starts at zero and adds the four tile sums holds the sum over the whole axis
  (associativity and commutativity of the sum only); the product with 2⁻¹², an exact power of two, is the quotient by
  4096 on every extended real; and the sum over (batch, row, column) is the sum over batches of the sums over (row,
  column). Nothing here needs the inputs to be finite. The idealization rewrote no operation, so the kernel's
  idealization is the kernel's own text read over the extended reals.
-/
import proofs.«142705_j85555748537092_1_alg».proof.Defs
import proofs.«142705_j85555748537092_1_alg».proof.Proof.Gen.Kernel
import proofs.«142705_j85555748537092_1_alg».proof.Proof.Gen.Kernel.Frame
import proofs.«142705_j85555748537092_1_alg».proof.Proof.Gen.KernelIdeal
import proofs.«142705_j85555748537092_1_alg».proof.Proof.Gen.KernelIdeal.Frame
import proofs.«142705_j85555748537092_1_alg».proof.Proof.Gen.ReferenceIdeal
import proofs.«142705_j85555748537092_1_alg».proof.Proof.Gen.ReferenceIdeal.Run
import proofs.«142705_j85555748537092_1_alg».proof.Proof.Gen.ReferenceIdeal.Read
import proofs.«142705_j85555748537092_1_alg».proof.Proof.Gen.Pre_finite_inputs
import proofs.«142705_j85555748537092_1_alg».proof.Proof.RefValue
import proofs.«142705_j85555748537092_1_alg».proof.Proof.KernelRun
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the loss of the (agreeing) argument arrays. -/
theorem algebraic : Cert.algebraic_KernelIdeal_ReferenceIdeal := by
  intro m ρ m' ρ' _ hagree
  refine ⟨fun c => fun _ => Cert.FspSpec.loss (Cert.KernelIdeal.Gram.arr0 m c) (Cert.KernelIdeal.Gram.arr1 m c)
    (Cert.KernelIdeal.Gram.arr2 m c) (Cert.KernelIdeal.Gram.arr3 m c), Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v9_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
